-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S16000000 : Shape := ⟨1, ![16000000]⟩
abbrev S16000000x3 : Shape := ⟨2, ![16000000, 3]⟩
abbrev S4x4 : Shape := ⟨2, ![4, 4]⟩
abbrev S_ : Shape := ⟨0, ![]⟩

class Facts : Prop where
  bcast_S_S16000000x3 : S_.BroadcastsInDim S16000000x3 (![] : Fin 0 → Fin S16000000x3.rank)
  reducesTo_S16000000x3_S_d0_1 : S16000000x3.ReducesTo [0, 1] S_
  h_S_ : 0 < S_.numel
  bcast_S_S4x4 : S_.BroadcastsInDim S4x4 (![] : Fin 0 → Fin S4x4.rank)
  reducesTo_S4x4_S_d0_1 : S4x4.ReducesTo [0, 1] S_

variable [Facts]

def fn {F : FTy → Type} [FloatOps F] (main_arg0 : IVec S500000 32) (main_arg1 : IVec S16000000 32) (main_arg2 : IVec S16000000 32) (main_arg3 : FVec F S16000000x3 .f32) (main_arg4 : FVec F S4x4 .f32) (main_arg5 : FVec F S4x4 .f32) : IVec S_ 1 :=
  let main_v0 : FVec F S16000000x3 .f32 := Host.absf main_arg3
  let main_cst : FVec F S_ .f32 := constant S_ .f32 0x7F800000#32
  let main_v1 : FVec F S16000000x3 .f32 := broadcastInDim S16000000x3 ![] bcast_S_S16000000x3 main_cst
  let main_v2 : IVec S16000000x3 1 := cmpf .olt main_v0 main_v1
  let main_c : IVec S_ 1 := constantI S_ 1 1#1
  let main_v3 : IVec S_ 1 := (fun x v => Host.reduce IntOp.andi x v reducesTo_S16000000x3_S_d0_1 h_S_) main_v2 main_c
  let main_v4 : FVec F S4x4 .f32 := Host.absf main_arg4
  let main_cst_0 : FVec F S_ .f32 := constant S_ .f32 0x7F800000#32
  let main_v5 : FVec F S4x4 .f32 := broadcastInDim S4x4 ![] bcast_S_S4x4 main_cst_0
  let main_v6 : IVec S4x4 1 := cmpf .olt main_v4 main_v5
  let main_c_1 : IVec S_ 1 := constantI S_ 1 1#1
  let main_v7 : IVec S_ 1 := (fun x v => Host.reduce IntOp.andi x v reducesTo_S4x4_S_d0_1 h_S_) main_v6 main_c_1
  let main_v8 : IVec S_ 1 := andi main_v3 main_v7
  let main_v9 : FVec F S4x4 .f32 := Host.absf main_arg5
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  main_v13
-- ==== Kernel.lean ====
abbrev S500000 : Shape := ⟨1, ![500000]⟩
abbrev S16000000 : Shape := ⟨1, ![16000000]⟩
abbrev S16000000x3 : Shape := ⟨2, ![16000000, 3]⟩
abbrev S4x4 : Shape := ⟨2, ![4, 4]⟩
abbrev S_ : Shape := ⟨0, ![]⟩
abbrev S16000000x1 : Shape := ⟨2, ![16000000, 1]⟩
abbrev S16000000x2 : Shape := ⟨2, ![16000000, 2]⟩
abbrev S125000x128 : Shape := ⟨2, ![125000, 128]⟩
abbrev S5000x128 : Shape := ⟨2, ![5000, 128]⟩
abbrev S32000000 : Shape := ⟨1, ![32000000]⟩
abbrev S32000000x1 : Shape := ⟨2, ![32000000, 1]⟩
abbrev S500000x1 : Shape := ⟨2, ![500000, 1]⟩

abbrev nBuf : Space → Nat
  | .hbm => 82
  | .vmem => 8
  | .smem => 0
  | _ => 0

abbrev bufTy : (tb : Table) → Fin (tcTables nBuf tb) → BufTy
  | .hbm, ⟨0, _⟩ => ⟨S500000, .i32⟩
  | .hbm, ⟨1, _⟩ => ⟨S16000000, .i32⟩
  | .hbm, ⟨2, _⟩ => ⟨S16000000, .i32⟩
  | .hbm, ⟨3, _⟩ => ⟨S16000000x3, .f32⟩
  | .hbm, ⟨4, _⟩ => ⟨S4x4, .f32⟩
  | .hbm, ⟨5, _⟩ => ⟨S4x4, .f32⟩
  | .hbm, ⟨6, _⟩ => ⟨S_, .i32⟩
  | .hbm, ⟨7, _⟩ => ⟨S16000000, .i32⟩
  | .hbm, ⟨8, _⟩ => ⟨S16000000, .i1⟩
  | .hbm, ⟨9, _⟩ => ⟨S_, .i32⟩
  | .hbm, ⟨10, _⟩ => ⟨S16000000, .i32⟩
  | .hbm, ⟨11, _⟩ => ⟨S16000000, .i32⟩
  | .hbm, ⟨12, _⟩ => ⟨S16000000, .i32⟩
  | .hbm, ⟨13, _⟩ => ⟨S16000000x1, .i32⟩
  | .hbm, ⟨14, _⟩ => ⟨S16000000, .i32⟩
  | .hbm, ⟨15, _⟩ => ⟨S_, .i32⟩
  | .hbm, ⟨16, _⟩ => ⟨S16000000, .i32⟩
  | .hbm, ⟨17, _⟩ => ⟨S16000000, .i1⟩
  | .hbm, ⟨18, _⟩ => ⟨S_, .i32⟩
  | .hbm, ⟨19, _⟩ => ⟨S16000000, .i32⟩
  | .hbm, ⟨20, _⟩ => ⟨S16000000, .i32⟩
  | .hbm, ⟨21, _⟩ => ⟨S16000000, .i32⟩
  | .hbm, ⟨22, _⟩ => ⟨S16000000x1, .i32⟩
  | .hbm, ⟨23, _⟩ => ⟨S16000000, .i32⟩
  | .hbm, ⟨24, _⟩ => ⟨S_, .i32⟩
  | .hbm, ⟨25, _⟩ => ⟨S16000000, .i32⟩
  | .hbm, ⟨26, _⟩ => ⟨S16000000, .i1⟩
  | .hbm, ⟨27, _⟩ => ⟨S_, .i32⟩
  | .hbm, ⟨28, _⟩ => ⟨S16000000, .i32⟩
  | .hbm, ⟨29, _⟩ => ⟨S16000000, .i32⟩
  | .hbm, ⟨30, _⟩ => ⟨S16000000, .i32⟩
  | .hbm, ⟨31, _⟩ => ⟨S_, .i32⟩
  | .hbm, ⟨32, _⟩ => ⟨S16000000, .i32⟩
  | .hbm, ⟨33, _⟩ => ⟨S16000000, .i1⟩
  | .hbm, ⟨34, _⟩ => ⟨S_, .i32⟩
  | .hbm, ⟨35, _⟩ => ⟨S16000000, .i32⟩
  | .hbm, ⟨36, _⟩ => ⟨S16000000, .i32⟩
  | .hbm, ⟨37, _⟩ => ⟨S16000000, .i32⟩
  | .hbm, ⟨38, _⟩ => ⟨S16000000x1, .i32⟩
  | .hbm, ⟨39, _⟩ => ⟨S16000000x1, .i32⟩
  | .hbm, ⟨40, _⟩ => ⟨S16000000x2, .i32⟩
  | .hbm, ⟨41, _⟩ => ⟨S16000000, .f32⟩
  | .hbm, ⟨42, _⟩ => ⟨S_, .i32⟩
  | .hbm, ⟨43, _⟩ => ⟨S16000000, .i32⟩
  | .hbm, ⟨44, _⟩ => ⟨S16000000, .i1⟩
  | .hbm, ⟨45, _⟩ => ⟨S_, .i32⟩
  | .hbm, ⟨46, _⟩ => ⟨S16000000, .i32⟩
  | .hbm, ⟨47, _⟩ => ⟨S16000000, .i32⟩
  | .hbm, ⟨48, _⟩ => ⟨S16000000, .i32⟩
  | .hbm, ⟨49, _⟩ => ⟨S_, .i32⟩
  | .hbm, ⟨50, _⟩ => ⟨S16000000, .i32⟩
  | .hbm, ⟨51, _⟩ => ⟨S16000000, .i1⟩
  | .hbm, ⟨52, _⟩ => ⟨S_, .i32⟩
  | .hbm, ⟨53, _⟩ => ⟨S16000000, .i32⟩
  | .hbm, ⟨54, _⟩ => ⟨S16000000, .i32⟩
  | .hbm, ⟨55, _⟩ => ⟨S16000000, .i32⟩
  | .hbm, ⟨56, _⟩ => ⟨S16000000x1, .i32⟩
  | .hbm, ⟨57, _⟩ => ⟨S16000000x1, .i32⟩
  | .hbm, ⟨58, _⟩ => ⟨S16000000x2, .i32⟩
  | .hbm, ⟨59, _⟩ => ⟨S16000000, .f32⟩
  | .hbm, ⟨60, _⟩ => ⟨S16000000x3, .f32⟩
  | .hbm, ⟨61, _⟩ => ⟨S_, .f32⟩
  | .hbm, ⟨62, _⟩ => ⟨S16000000, .f32⟩
  | .hbm, ⟨63, _⟩ => ⟨S125000x128, .f32⟩
  | .hbm, ⟨64, _⟩ => ⟨S125000x128, .f32⟩
  | .hbm, ⟨65, _⟩ => ⟨S125000x128, .f32⟩
  | .hbm, ⟨66, _⟩ => ⟨S125000x128, .f32⟩
  | .hbm, ⟨67, _⟩ => ⟨S16000000, .f32⟩
  | .hbm, ⟨68, _⟩ => ⟨S32000000, .i32⟩
  | .hbm, ⟨69, _⟩ => ⟨S32000000, .f32⟩
  | .hbm, ⟨70, _⟩ => ⟨S_, .f32⟩
  | .hbm, ⟨71, _⟩ => ⟨S500000, .f32⟩
  | .hbm, ⟨72, _⟩ => ⟨S_, .i32⟩
  | .hbm, ⟨73, _⟩ => ⟨S32000000, .i32⟩
  | .hbm, ⟨74, _⟩ => ⟨S32000000, .i1⟩
  | .hbm, ⟨75, _⟩ => ⟨S_, .i32⟩
  | .hbm, ⟨76, _⟩ => ⟨S32000000, .i32⟩
  | .hbm, ⟨77, _⟩ => ⟨S32000000, .i32⟩
  | .hbm, ⟨78, _⟩ => ⟨S32000000, .i32⟩
  | .hbm, ⟨79, _⟩ => ⟨S32000000x1, .i32⟩
  | .hbm, ⟨80, _⟩ => ⟨S500000, .f32⟩
  | .hbm, ⟨81, _⟩ => ⟨S500000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_c_12 : Ref sig .tc := ⟨.hbm, 72, rfl⟩
abbrev main_v52 : Ref sig .tc := ⟨.hbm, 73, rfl⟩
abbrev main_v53 : Ref sig .tc := ⟨.hbm, 74, rfl⟩
abbrev main_c_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x1_S16000000x1_S16000000x2_d1 : Shape.Concatenates [S16000000x1, S16000000x1] S16000000x2 1
  reducesTo_S16000000x3_S16000000_d1 : S16000000x3.ReducesTo [1] S16000000
  h_S_ : 0 < S_.numel
  shapeCasts_S16000000_S125000x128 : S16000000.ShapeCasts S125000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S125000x128_S16000000 : S125000x128.ShapeCasts S16000000
  concatenates_S16000000_S16000000_S32000000_d0 : Shape.Concatenates [S16000000, S16000000] S32000000 0
  bcast_S_S500000 : S_.BroadcastsInDim S500000 (![] : Fin 0 → Fin S500000.rank)
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S500000_S500000x1_0 : S500000.BroadcastsInDim S500000x1 (![0] : Fin 1 → Fin S500000x1.rank)
  gather_S500000_S16000000x1_S16000000_n_0_n_n_0_1_1_wf : GatherDims.WF S500000 S16000000x1 S16000000 [] [0] [] [0] [] 1 ![1]
  gather_S4x4_S16000000x2_S16000000_n_01_n_n_01_1_11_wf : GatherDims.WF S4x4 S16000000x2 S16000000 [] [0, 1] [] [0, 1] [] 1 ![1, 1]
  scatter_S500000_S32000000x1_S32000000_n_0_0_1_wf : ScatterDims.WF S500000 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S125000x128.size a
  hwx0_1 : ∀ i : grid0.Coords, EltTy.bits .f32 = 32 ∨ (Rect.block (s := S125000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S125000x128.size a
  hwx0_3 : ∀ i : grid0.Coords, EltTy.bits .f32 = 32 ∨ (Rect.block (s := S125000x128) S5000x128.size (cc0_transform_3 i) (hinb0_3 i)).WholeWords (EltTy.packing .f32)

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S4x4_S16000000x2_S16000000_n_01_n_n_01_1_11 : GatherDims S4x4 S16000000x2 S16000000 where
  offsetDims := []
  collapsedSliceDims := [0, 1]
  operandBatchingDims := []
  startIndicesBatchingDims := []
  startIndexMap := [0, 1]
  indexVectorDim := 1
  sliceSizes := ![1, 1]
  wf := gather_S4x4_S16000000x2_S16000000_n_01_n_n_01_1_11_wf
def scatter_S500000_S32000000x1_S32000000_n_0_0_1 : ScatterDims S500000 S32000000x1 S32000000 where
  updateWindowDims := []
  insertedWindowDims := [0]
  scatterDimsToOperandDims := [0]
  indexVectorDim := 1
  wf := scatter_S500000_S32000000x1_S32000000_n_0_0_1_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000 : Shape := ⟨1, ![500000]⟩
abbrev S16000000 : Shape := ⟨1, ![16000000]⟩
abbrev S16000000x3 : Shape := ⟨2, ![16000000, 3]⟩
abbrev S4x4 : Shape := ⟨2, ![4, 4]⟩
abbrev S_ : Shape := ⟨0, ![]⟩
abbrev S16000000x1 : Shape := ⟨2, ![16000000, 1]⟩
abbrev S16000000x2 : Shape := ⟨2, ![16000000, 2]⟩
abbrev S500000x1 : Shape := ⟨2, ![500000, 1]⟩

abbrev nBuf : Space → Nat
  | .hbm => 115
  | .vmem => 0
  | .smem => 0
  | _ => 0

abbrev bufTy : (tb : Table) → Fin (tcTables nBuf tb) → BufTy
  | .hbm, ⟨0, _⟩ => ⟨S500000, .i32⟩
  | .hbm, ⟨1, _⟩ => ⟨S16000000, .i32⟩
  | .hbm, ⟨2, _⟩ => ⟨S16000000, .i32⟩
  | .hbm, ⟨3, _⟩ => ⟨S16000000x3, .f32⟩
  | .hbm, ⟨4, _⟩ => ⟨S4x4, .f32⟩
  | .hbm, ⟨5, _⟩ => ⟨S4x4, .f32⟩
  | .hbm, ⟨6, _⟩ => ⟨S_, .i32⟩
  | .hbm, ⟨7, _⟩ => ⟨S16000000, .i32⟩
  | .hbm, ⟨8, _⟩ => ⟨S16000000, .i1⟩
  | .hbm, ⟨9, _⟩ => ⟨S_, .i32⟩
  | .hbm, ⟨10, _⟩ => ⟨S16000000, .i32⟩
  | .hbm, ⟨11, _⟩ => ⟨S16000000, .i32⟩
  | .hbm, ⟨12, _⟩ => ⟨S16000000, .i32⟩
  | .hbm, ⟨13, _⟩ => ⟨S16000000x1, .i32⟩
  | .hbm, ⟨14, _⟩ => ⟨S16000000, .i32⟩
  | .hbm, ⟨15, _⟩ => ⟨S_, .i32⟩
  | .hbm, ⟨16, _⟩ => ⟨S16000000, .i32⟩
  | .hbm, ⟨17, _⟩ => ⟨S16000000, .i1⟩
  | .hbm, ⟨18, _⟩ => ⟨S_, .i32⟩
  | .hbm, ⟨19, _⟩ => ⟨S16000000, .i32⟩
  | .hbm, ⟨20, _⟩ => ⟨S16000000, .i32⟩
  | .hbm, ⟨21, _⟩ => ⟨S16000000, .i32⟩
  | .hbm, ⟨22, _⟩ => ⟨S16000000x1, .i32⟩
  | .hbm, ⟨23, _⟩ => ⟨S16000000, .i32⟩
  | .hbm, ⟨24, _⟩ => ⟨S_, .i32⟩
  | .hbm, ⟨25, _⟩ => ⟨S16000000, .i32⟩
  | .hbm, ⟨26, _⟩ => ⟨S16000000, .i1⟩
  | .hbm, ⟨27, _⟩ => ⟨S_, .i32⟩
  | .hbm, ⟨28, _⟩ => ⟨S16000000, .i32⟩
  | .hbm, ⟨29, _⟩ => ⟨S16000000, .i32⟩
  | .hbm, ⟨30, _⟩ => ⟨S16000000, .i32⟩
  | .hbm, ⟨31, _⟩ => ⟨S_, .i32⟩
  | .hbm, ⟨32, _⟩ => ⟨S16000000, .i32⟩
  | .hbm, ⟨33, _⟩ => ⟨S16000000, .i1⟩
  | .hbm, ⟨34, _⟩ => ⟨S_, .i32⟩
  | .hbm, ⟨35, _⟩ => ⟨S16000000, .i32⟩
  | .hbm, ⟨36, _⟩ => ⟨S16000000, .i32⟩
  | .hbm, ⟨37, _⟩ => ⟨S16000000, .i32⟩
  | .hbm, ⟨38, _⟩ => ⟨S16000000x1, .i32⟩
  | .hbm, ⟨39, _⟩ => ⟨S16000000x1, .i32⟩
  | .hbm, ⟨40, _⟩ => ⟨S16000000x2, .i32⟩
  | .hbm, ⟨41, _⟩ => ⟨S16000000, .f32⟩
  | .hbm, ⟨42, _⟩ => ⟨S_, .i32⟩
  | .hbm, ⟨43, _⟩ => ⟨S16000000, .i32⟩
  | .hbm, ⟨44, _⟩ => ⟨S16000000, .i1⟩
  | .hbm, ⟨45, _⟩ => ⟨S_, .i32⟩
  | .hbm, ⟨46, _⟩ => ⟨S16000000, .i32⟩
  | .hbm, ⟨47, _⟩ => ⟨S16000000, .i32⟩
  | .hbm, ⟨48, _⟩ => ⟨S16000000, .i32⟩
  | .hbm, ⟨49, _⟩ => ⟨S_, .i32⟩
  | .hbm, ⟨50, _⟩ => ⟨S16000000, .i32⟩
  | .hbm, ⟨51, _⟩ => ⟨S16000000, .i1⟩
  | .hbm, ⟨52, _⟩ => ⟨S_, .i32⟩
  | .hbm, ⟨53, _⟩ => ⟨S16000000, .i32⟩
  | .hbm, ⟨54, _⟩ => ⟨S16000000, .i32⟩
  | .hbm, ⟨55, _⟩ => ⟨S16000000, .i32⟩
  | .hbm, ⟨56, _⟩ => ⟨S16000000x1, .i32⟩
  | .hbm, ⟨57, _⟩ => ⟨S16000000x1, .i32⟩
  | .hbm, ⟨58, _⟩ => ⟨S16000000x2, .i32⟩
  | .hbm, ⟨59, _⟩ => ⟨S16000000, .f32⟩
  | .hbm, ⟨60, _⟩ => ⟨S_, .f32⟩
  | .hbm, ⟨61, _⟩ => ⟨S16000000, .f32⟩
  | .hbm, ⟨62, _⟩ => ⟨S16000000, .f32⟩
  | .hbm, ⟨63, _⟩ => ⟨S16000000, .f32⟩
  | .hbm, ⟨64, _⟩ => ⟨S16000000, .f32⟩
  | .hbm, ⟨65, _⟩ => ⟨S16000000, .f32⟩
  | .hbm, ⟨66, _⟩ => ⟨S_, .f32⟩
  | .hbm, ⟨67, _⟩ => ⟨S16000000, .f32⟩
  | .hbm, ⟨68, _⟩ => ⟨S16000000, .f32⟩
  | .hbm, ⟨69, _⟩ => ⟨S16000000, .f32⟩
  | .hbm, ⟨70, _⟩ => ⟨S16000000, .f32⟩
  | .hbm, ⟨71, _⟩ => ⟨S16000000, .f32⟩
  | .hbm, ⟨72, _⟩ => ⟨S16000000x3, .f32⟩
  | .hbm, ⟨73, _⟩ => ⟨S_, .f32⟩
  | .hbm, ⟨74, _⟩ => ⟨S16000000, .f32⟩
  | .hbm, ⟨75, _⟩ => ⟨S16000000, .f32⟩
  | .hbm, ⟨76, _⟩ => ⟨S16000000, .f32⟩
  | .hbm, ⟨77, _⟩ => ⟨S16000000, .f32⟩
  | .hbm, ⟨78, _⟩ => ⟨S16000000, .f32⟩
  | .hbm, ⟨79, _⟩ => ⟨S16000000, .f32⟩
  | .hbm, ⟨80, _⟩ => ⟨S16000000, .f32⟩
  | .hbm, ⟨81, _⟩ => ⟨S16000000, .f32⟩
  | .hbm, ⟨82, _⟩ => ⟨S_, .f32⟩
  | .hbm, ⟨83, _⟩ => ⟨S16000000, .f32⟩
  | .hbm, ⟨84, _⟩ => ⟨S16000000, .f32⟩
  | .hbm, ⟨85, _⟩ => ⟨S16000000, .f32⟩
  | .hbm, ⟨86, _⟩ => ⟨S16000000, .f32⟩
  | .hbm, ⟨87, _⟩ => ⟨S16000000, .f32⟩
  | .hbm, ⟨88, _⟩ => ⟨S_, .f32⟩
  | .hbm, ⟨89, _⟩ => ⟨S500000, .f32⟩
  | .hbm, ⟨90, _⟩ => ⟨S_, .f32⟩
  | .hbm, ⟨91, _⟩ => ⟨S16000000, .f32⟩
  | .hbm, ⟨92, _⟩ => ⟨S16000000, .f32⟩
  | .hbm, ⟨93, _⟩ => ⟨S_, .i32⟩
  | .hbm, ⟨94, _⟩ => ⟨S16000000, .i32⟩
  | .hbm, ⟨95, _⟩ => ⟨S16000000, .i1⟩
  | .hbm, ⟨96, _⟩ => ⟨S_, .i32⟩
  | .hbm, ⟨97, _⟩ => ⟨S16000000, .i32⟩
  | .hbm, ⟨98, _⟩ => ⟨S16000000, .i32⟩
  | .hbm, ⟨99, _⟩ => ⟨S16000000, .i32⟩
  | .hbm, ⟨100, _⟩ => ⟨S16000000x1, .i32⟩
  | .hbm, ⟨101, _⟩ => ⟨S500000, .f32⟩
  | .hbm, ⟨102, _⟩ => ⟨S_, .f32⟩
  | .hbm, ⟨103, _⟩ => ⟨S16000000, .f32⟩
  | .hbm, ⟨104, _⟩ => ⟨S16000000, .f32⟩
  | .hbm, ⟨105, _⟩ => ⟨S_, .i32⟩
  | .hbm, ⟨106, _⟩ => ⟨S16000000, .i32⟩
  | .hbm, ⟨107, _⟩ => ⟨S16000000, .i1⟩
  | .hbm, ⟨108, _⟩ => ⟨S_, .i32⟩
  | .hbm, ⟨109, _⟩ => ⟨S16000000, .i32⟩
  | .hbm, ⟨110, _⟩ => ⟨S16000000, .i32⟩
  | .hbm, ⟨111, _⟩ => ⟨S16000000, .i32⟩
  | .hbm, ⟨112, _⟩ => ⟨S16000000x1, .i32⟩
  | .hbm, ⟨113, _⟩ => ⟨S500000, .f32⟩
  | .hbm, ⟨114, _⟩ => ⟨S500000x1, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_c_16 : Ref sig .tc := ⟨.hbm, 93, rfl⟩
abbrev main_v69 : Ref sig .tc := ⟨.hbm, 94, rfl⟩
abbrev main_v70 : Ref sig .tc := ⟨.hbm, 95, rfl⟩
abbrev main_c_17 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_18 : Ref sig .tc := ⟨.hbm, 102, rfl⟩
abbrev main_v76 : Ref sig .tc := ⟨.hbm, 103, rfl⟩
abbrev main_v77 : Ref sig .tc := ⟨.hbm, 104, rfl⟩
abbrev main_c_19 : Ref sig .tc := ⟨.hbm, 105, rfl⟩
abbrev main_v78 : Ref sig .tc := ⟨.hbm, 106, rfl⟩
abbrev main_v79 : Ref sig .tc := ⟨.hbm, 107, rfl⟩
abbrev main_c_20 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x1_S16000000x1_S16000000x2_d1 : Shape.Concatenates [S16000000x1, S16000000x1] S16000000x2 1
  reducesTo_S16000000x3_S16000000_d1 : S16000000x3.ReducesTo [1] S16000000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  gather_S500000_S16000000x1_S16000000_n_0_n_n_0_1_1_wf : GatherDims.WF S500000 S16000000x1 S16000000 [] [0] [] [0] [] 1 ![1]
  gather_S4x4_S16000000x2_S16000000_n_01_n_n_01_1_11_wf : GatherDims.WF S4x4 S16000000x2 S16000000 [] [0, 1] [] [0, 1] [] 1 ![1, 1]
  scatter_S500000_S16000000x1_S16000000_n_0_0_1_wf : ScatterDims.WF S500000 S16000000x1 S16000000 [] [0] [0] 1

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S4x4_S16000000x2_S16000000_n_01_n_n_01_1_11 : GatherDims S4x4 S16000000x2 S16000000 where
  offsetDims := []
  collapsedSliceDims := [0, 1]
  operandBatchingDims := []
  startIndicesBatchingDims := []
  startIndexMap := [0, 1]
  indexVectorDim := 1
  sliceSizes := ![1, 1]
  wf := gather_S4x4_S16000000x2_S16000000_n_01_n_n_01_1_11_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

class Facts : Prop extends Facts₀ where

variable [Facts]
-- ==== Proof.EdgeEnergy.lean ====
/-
  The half Lennard-Jones pair energy with a cutoff shift, on the extended reals.

  For one edge with squared distance `r2`, length parameter `s` and depth parameter `eps`:
    sc  = s · (1/5)                       (the length parameter over the cutoff 5)
    sr6 = s⁶ / r2³                        (with s⁶ = (s·s·s)·(s·s·s) and r2³ = (r2·r2)·r2)
    e   = 4·eps·(sr6·sr6 − sr6) − 4·eps·(sc⁶·sc⁶ − sc⁶)
  and the value scattered to each endpoint is e/2. Both programs compute exactly this chain of products,
  differences and one quotient, in the same association; they differ only in how `sc` is written: one divides
  by 5, the other multiplies by the named constant 1/5, and on every extended real those agree.
-/
import Idealize.ShloMosaic.PureOps.Ideal
import Idealize.ShloMosaic.PureOps.Ideal.Laws

noncomputable section

namespace LJ

open Idealize.ShloMosaic

/-- The word 0x40800000 is the real number 4. -/
theorem ofBits_four : Ideal.ofBits .f32 0x40800000#32 = ((4 : ℝ) : EReal) := by
  simp [Ideal.ofBits, Ideal.ieee, -EReal.coe_mul]; norm_num

/-- The word 0x3F000000 is the real number 1/2. -/
theorem ofBits_half : Ideal.ofBits .f32 0x3F000000#32 = ((1 / 2 : ℝ) : EReal) := by
  simp [Ideal.ofBits, Ideal.ieee, -EReal.coe_mul]; norm_num

/-- The word 0x40A00000 is the real number 5. -/
theorem ofBits_five : Ideal.ofBits .f32 0x40A00000#32 = ((5 : ℝ) : EReal) := by
  simp [Ideal.ofBits, Ideal.ieee, -EReal.coe_mul]; norm_num

/-- Dividing by 5 is multiplying by 1/5, on every extended real (the infinities included). -/
theorem div_five (s : EReal) : Ideal.div s (Ideal.ofBits .f32 0x40A00000#32) = s * ((1 / 5 : ℝ) : EReal) := by
  rw [ofBits_five]; exact Ideal.div_coe (by norm_num) s

/-- The half pair energy of one edge, from its squared distance and its two pair parameters. -/
def halfEnergy (r2 s eps : EReal) : EReal :=
  Ideal.ofBits .f32 0x3F000000#32 *
    (Ideal.ofBits .f32 0x40800000#32 * eps *
        (Ideal.div (s * s * s * (s * s * s)) (r2 * r2 * r2) * Ideal.div (s * s * s * (s * s * s)) (r2 * r2 * r2)
          - Ideal.div (s * s * s * (s * s * s)) (r2 * r2 * r2))
      - Ideal.ofBits .f32 0x40800000#32 * eps *
        (s * ((1 / 5 : ℝ) : EReal) * (s * ((1 / 5 : ℝ) : EReal)) * (s * ((1 / 5 : ℝ) : EReal))
              * (s * ((1 / 5 : ℝ) : EReal) * (s * ((1 / 5 : ℝ) : EReal)) * (s * ((1 / 5 : ℝ) : EReal)))
            * (s * ((1 / 5 : ℝ) : EReal) * (s * ((1 / 5 : ℝ) : EReal)) * (s * ((1 / 5 : ℝ) : EReal))
              * (s * ((1 / 5 : ℝ) : EReal) * (s * ((1 / 5 : ℝ) : EReal)) * (s * ((1 / 5 : ℝ) : EReal))))
          - s * ((1 / 5 : ℝ) : EReal) * (s * ((1 / 5 : ℝ) : EReal)) * (s * ((1 / 5 : ℝ) : EReal))
              * (s * ((1 / 5 : ℝ) : EReal) * (s * ((1 / 5 : ℝ) : EReal)) * (s * ((1 / 5 : ℝ) : EReal)))))

end LJ

end
-- ==== Proof.KernelPoint.lean ====
/-
  One grid point of the kernel, entry by entry.

  The body loads a block of squared distances, a block of length parameters and a block of depth parameters,
  and stores one block: at every entry the half pair energy of those three numbers. The constant the body
  multiplies the length parameter by is named 1/5, and reads as that rational on the extended reals.
-/
import Idealize.ShloMosaic.Lib.Pipeline.Value
import proofs.«414782_j72988674228250_3_alg».proof.Proof.Gen.KernelIdeal.Skeleton
import proofs.«414782_j72988674228250_3_alg».proof.Proof.EdgeEnergy

noncomputable section

namespace Cert.KernelIdeal.PointValue

open Idealize.ShloMosaic Cert.KernelIdeal Cert.KernelIdeal.Gen

/-- The named reciprocal of the cutoff is the rational 1/5. -/
theorem inv_5 : Named.named (F := Ideal) Cert.KernelIdeal.κ "inv_5" (φ := .f32) 0x3E4CCCCD#32 = ((1 / 5 : ℝ) : EReal) :=
  IdealRules.named_const.ideal_named_scalar _ _ _ _ rfl

/-- The stored block is, at every entry, the half pair energy of the three loaded blocks' entries there. -/
theorem pay_eq (x0 x1 x2 : Vec Ideal S5000x128 .f32) :
    k0_pay1 (F := Ideal) x0 x1 x2 = fun i => LJ.halfEnergy (x0 i) (x1 i) (x2 i) := by
  funext i
  simp only [k0_pay1, shapeCast_self, mulf, subf, divf, broadcast, Ideal.mulf_def, Ideal.subf_def, Ideal.divf_def,
    Ideal.ofBits_def, inv_5, LJ.halfEnergy]

end Cert.KernelIdeal.PointValue

end
-- ==== Proof.KernelArray.lean ====
/-
  The array the region leaves: the half pair energy of every edge.

  The region runs 25 points; point t fetches rows 5000·t … 5000·t + 4999 of three arrays of shape
  125000 × 128 (squared distances, length parameters, depth parameters; all three through the same row
  block) and writes the same rows of the result. Its body stores, entry by entry, the half pair energy of
  the three loaded entries. So what a point writes back is its row block of ONE function of the three arrays,
  and the 25 row blocks cover every row: the result array ends holding that function everywhere.
-/
import Idealize.ShloMosaic.Lib.Pipeline.Value
import proofs.«414782_j72988674228250_3_alg».proof.Proof.Gen.KernelIdeal.Frame
import proofs.«414782_j72988674228250_3_alg».proof.Proof.KernelPoint

noncomputable section

namespace Cert.KernelIdeal.ArrayValue

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The body's one store starts at the block's origin. -/
theorem origin : (![0, 0] : Fin 2 → Nat) = fun _ => 0 := funext fun a => by fin_cases a <;> rfl

/-- The array of half pair energies, entry by entry, from the three arrays the region finds staged. -/
def energies (c : Dev nD) : Vec Ideal S125000x128 .f32 :=
  fun i => LJ.halfEnergy (V m c (Pipeline.arrRef spec0 0) i) (V m c (Pipeline.arrRef spec0 1) i) (V m c (Pipeline.arrRef spec0 2) i)

/-- All four windows move through the same row block: block row = the point, block column 0. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 24 ∧ win0_3.index t (1 : Fin 2) = 0 :=
  (by decide +kernel : ∀ t : Fin grid0.N, _)

/-- Every one of the 25 row blocks is some point's. -/
theorem idx_onto : ∀ q : Fin 25, ∃ t : Fin cfg0.N, win0_3.index t = ![q.val, 0] :=
  (by decide +kernel : ∀ q : Fin 25, ∃ t : Fin grid0.N, win0_3.index t = ![q.val, 0])

/-- For ANY three arrays: the half pair energies of their blocks at point t, entry by entry, are the block at
    point t of the half pair energies of the arrays (an entry of any of the four blocks sits in its array at
    row 5000·(block row) + its row and at its own column, and the block rows agree). -/
theorem blk_read (A0 A1 A2 : Vec Ideal S125000x128 .f32) (t : Fin cfg0.N) (j : ((win0 3).xblock (grid0.coords t)).Idx) :
    (win0 3).cut (grid0.coords t) (fun i => LJ.halfEnergy (((cfg0.win 0).blk t).view.read (Elt Ideal) A0 i)
        (((cfg0.win 1).blk t).view.read (Elt Ideal) A1 i) (((cfg0.win 2).blk t).view.read (Elt Ideal) A2 i)) j
      = View.read (Elt Ideal) ((View.whole main_v47).slice ((win0 3).rect t)) (fun i => LJ.halfEnergy (A0 i) (A1 i) (A2 i)) j := by
  obtain ⟨e0, e1, e2, e3, e4, e5, e6, e7⟩ := idx_facts t
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega
  show LJ.halfEnergy (A0 (((cfg0.win 0).blk t).view.emb j)) (A1 (((cfg0.win 1).blk t).view.emb j)) (A2 (((cfg0.win 2).blk t).view.emb j))
     = LJ.halfEnergy (A0 (((cfg0.win 3).blk t).view.emb j)) (A1 (((cfg0.win 3).blk t).view.emb j)) (A2 (((cfg0.win 3).blk t).view.emb j))
  rw [h0, h1, h2]

/-- What point t writes back is its row block of the array of half pair energies. -/
theorem flushed_eq (c : Dev nD) (t : Fin cfg0.N) :
    (dats m 0 c).flushed 3 t = ((cfg0.win 3).blk t).view.read (Elt Ideal) (energies m c) := by
  show (cfg0.win 3).cut (grid0.coords t) ((dats m 0 c).after 3 t) = _
  rw [after0_3]
  unfold out0_3
  rw [View.canon_unit_zero origin]
  simp only [View.ld_unit_zero (S := S5000x128) origin]
  rw [PointValue.pay_eq]
  funext j
  unfold iblk energies
  exact blk_read (V m c (Pipeline.arrRef spec0 0)) (V m c (Pipeline.arrRef spec0 1)) (V m c (Pipeline.arrRef spec0 2)) t j

/-- An entry of the result array is in point t's block iff its row is in that row block (and its column is any). -/
theorem mem_blk (t : Fin cfg0.N) (i : S125000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v47).slice (win0_3.rect t)).set ↔ _
  rw [View.set_slice_whole, Rect.mem_set_unit]
  exact Iff.rfl

/-- Every entry is written back by some point: row r by the point whose row block is r / 5000. -/
theorem cover (i : S125000x128.Idx) :
    ∃ t : Fin cfg0.N, (cfg0.win 3).flush t = true ∧ i ∈ ((cfg0.win 3).blk t).view.set := by
  have hi0 : (i 0).val < 125000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the region: the half pair energy of every edge. -/
theorem final (c : Dev nD) : (dats m 0 c).arrAt 3 cfg0.N = energies m c :=
  (dats m 0 c).arrAt_eq_of_cover 3 (energies m c) (fun t _ => flushed_eq m c t) cover

end Cert.KernelIdeal.ArrayValue

end
-- ==== Proof.KernelHost.lean ====
/-
  The host side of the kernel program, read as values.

  Before the region: the species of both endpoints of every edge (two gathers from the species vector, a
  negative index first moved up by the vector's length), the length and depth parameters of every edge
  (gathers from the two 4 × 4 tables at the species pair), and the squared length of every edge vector (the
  sum of its three squared components); each of the three per-edge vectors is then laid out as 125000 × 128.
  After the region: the result array is laid out flat again, concatenated with itself, and scattered with
  accumulation into a zero vector of 500000 entries at the first endpoints followed by the second endpoints.
-/
import Idealize.ShloMosaic.Lib.StableHlo.Run
import proofs.«414782_j72988674228250_3_alg».proof.Proof.KernelArray

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F] [Named F]

/-- The species of every edge's first endpoint. -/
def src_v6 (W : Valuation τ sig (Elt F)) : (Proc.devRef .tc main_v6 : DevRef τ sig).ty.Contents (Elt F) :=
  Host.gather gather_S500000_S16000000x1_S16000000_n_0_n_n_0_1_1 (W (Proc.devRef .tc main_arg0)) (broadcastInDim S16000000x1 ![0] bcast_S16000000_S16000000x1_0 (select (cmpi .slt (W (Proc.devRef .tc main_arg1)) (broadcastInDim S16000000 ![] bcast_S_S16000000 (constantI S_ 32 0#32))) (addi (W (Proc.devRef .tc main_arg1)) (broadcastInDim S16000000 ![] bcast_S_S16000000 (constantI S_ 32 500000#32))) (W (Proc.devRef .tc main_arg1))))

/-- The species of every edge's second endpoint. -/
def src_v13 (W : Valuation τ sig (Elt F)) : (Proc.devRef .tc main_v13 : DevRef τ sig).ty.Contents (Elt F) :=
  Host.gather gather_S500000_S16000000x1_S16000000_n_0_n_n_0_1_1 (W (Proc.devRef .tc main_arg0)) (broadcastInDim S16000000x1 ![0] bcast_S16000000_S16000000x1_0 (select (cmpi .slt (W (Proc.devRef .tc main_arg2)) (broadcastInDim S16000000 ![] bcast_S_S16000000 (constantI S_ 32 0#32))) (addi (W (Proc.devRef .tc main_arg2)) (broadcastInDim S16000000 ![] bcast_S_S16000000 (constantI S_ 32 500000#32))) (W (Proc.devRef .tc main_arg2))))

/-- The length parameter of every edge: the first table at its species pair. -/
def src_v27 (W : Valuation τ sig (Elt F)) : (Proc.devRef .tc main_v27 : DevRef τ sig).ty.Contents (Elt F) :=
  Host.gather gather_S4x4_S16000000x2_S16000000_n_01_n_n_01_1_11 (W (Proc.devRef .tc main_arg4)) (concatenate S16000000x2 1 [⟨S16000000x1, (broadcastInDim S16000000x1 ![0] bcast_S16000000_S16000000x1_0 (select (cmpi .slt (src_v6 W) (broadcastInDim S16000000 ![] bcast_S_S16000000 (constantI S_ 32 0#32))) (addi (src_v6 W) (broadcastInDim S16000000 ![] bcast_S_S16000000 (constantI S_ 32 4#32))) (src_v6 W)))⟩, ⟨S16000000x1, (broadcastInDim S16000000x1 ![0] bcast_S16000000_S16000000x1_0 (select (cmpi .slt (src_v13 W) (broadcastInDim S16000000 ![] bcast_S_S16000000 (constantI S_ 32 0#32))) (addi (src_v13 W) (broadcastInDim S16000000 ![] bcast_S_S16000000 (constantI S_ 32 4#32))) (src_v13 W)))⟩] concatenates_S16000000x1_S16000000x1_S16000000x2_d1)

/-- The depth parameter of every edge: the second table at its species pair. -/
def src_v41 (W : Valuation τ sig (Elt F)) : (Proc.devRef .tc main_v41 : DevRef τ sig).ty.Contents (Elt F) :=
  Host.gather gather_S4x4_S16000000x2_S16000000_n_01_n_n_01_1_11 (W (Proc.devRef .tc main_arg5)) (concatenate S16000000x2 1 [⟨S16000000x1, (broadcastInDim S16000000x1 ![0] bcast_S16000000_S16000000x1_0 (select (cmpi .slt (src_v6 W) (broadcastInDim S16000000 ![] bcast_S_S16000000 (constantI S_ 32 0#32))) (addi (src_v6 W) (broadcastInDim S16000000 ![] bcast_S_S16000000 (constantI S_ 32 4#32))) (src_v6 W)))⟩, ⟨S16000000x1, (broadcastInDim S16000000x1 ![0] bcast_S16000000_S16000000x1_0 (select (cmpi .slt (src_v13 W) (broadcastInDim S16000000 ![] bcast_S_S16000000 (constantI S_ 32 0#32))) (addi (src_v13 W) (broadcastInDim S16000000 ![] bcast_S_S16000000 (constantI S_ 32 4#32))) (src_v13 W)))⟩] concatenates_S16000000x1_S16000000x1_S16000000x2_d1)

/-- The squared length of every edge vector. -/
def src_v43 (W : Valuation τ sig (Elt F)) : (Proc.devRef .tc main_v43 : DevRef τ sig).ty.Contents (Elt F) :=
  Host.reduceAdd (mulf (W (Proc.devRef .tc main_arg3)) (W (Proc.devRef .tc main_arg3))) (constant S_ .f32 0x00000000#32) reducesTo_S16000000x3_S16000000_d1 h_S_

set_option maxHeartbeats 40000000 in
/-- The first staged array is the squared lengths, laid out 125000 × 128. -/
theorem staged0 (W : Valuation τ sig (Elt F)) :
    StableHlo.after (List.flatten [hostOps0 (F := F)]) W (Proc.devRef .tc main_v44)
      = shapeCast S125000x128 (src_v43 W) shapeCasts_S16000000_S125000x128 := by
  rw [List.flatten_cons, List.flatten_nil, List.append_nil]
  after_results_simp
  rfl

set_option maxHeartbeats 40000000 in
/-- The second staged array is the length parameters, laid out 125000 × 128. -/
theorem staged1 (W : Valuation τ sig (Elt F)) :
    StableHlo.after (List.flatten [hostOps0 (F := F)]) W (Proc.devRef .tc main_v45)
      = shapeCast S125000x128 (src_v27 W) shapeCasts_S16000000_S125000x128 := by
  rw [List.flatten_cons, List.flatten_nil, List.append_nil]
  after_results_simp
  rfl

set_option maxHeartbeats 40000000 in
/-- The third staged array is the depth parameters, laid out 125000 × 128. -/
theorem staged2 (W : Valuation τ sig (Elt F)) :
    StableHlo.after (List.flatten [hostOps0 (F := F)]) W (Proc.devRef .tc main_v46)
      = shapeCast S125000x128 (src_v41 W) shapeCasts_S16000000_S125000x128 := by
  rw [List.flatten_cons, List.flatten_nil, List.append_nil]
  after_results_simp
  rfl

/-- What the lines after the region compute from the region's result array `e` and the two endpoint vectors: the
    array laid out flat, concatenated with itself, scattered with accumulation into zeros at the concatenated
    endpoints (negative ones moved up by 500000), and given a trailing unit axis. -/
def tail (e : FVec Ideal S125000x128 .f32) (a1 a2 : IVec S16000000 32) : FVec Ideal S500000x1 .f32 :=
  broadcastInDim S500000x1 ![0] bcast_S500000_S500000x1_0
    (Host.scatterAdd (F := Ideal) scatter_S500000_S32000000x1_S32000000_n_0_0_1
      (broadcastInDim S500000 ![] bcast_S_S500000 (constant (F := Ideal) S_ .f32 0x00000000#32))
      (broadcastInDim S32000000x1 ![0] bcast_S32000000_S32000000x1_0
        (select
          (cmpi .slt (concatenate S32000000 0 [⟨S16000000, a1⟩, ⟨S16000000, a2⟩] concatenates_S16000000_S16000000_S32000000_d0)
            (broadcastInDim S32000000 ![] bcast_S_S32000000 (constantI S_ 32 0#32)))
          (addi (concatenate S32000000 0 [⟨S16000000, a1⟩, ⟨S16000000, a2⟩] concatenates_S16000000_S16000000_S32000000_d0)
            (broadcastInDim S32000000 ![] bcast_S_S32000000 (constantI S_ 32 500000#32)))
          (concatenate S32000000 0 [⟨S16000000, a1⟩, ⟨S16000000, a2⟩] concatenates_S16000000_S16000000_S32000000_d0)))
      (concatenate S32000000 0
        [⟨S16000000, shapeCast S16000000 e shapeCasts_S125000x128_S16000000⟩,
          ⟨S16000000, shapeCast S16000000 e shapeCasts_S125000x128_S16000000⟩]
        concatenates_S16000000_S16000000_S32000000_d0))

set_option maxHeartbeats 4000000 in
/-- The lines after the region, run from any contents, leave the result buffer at `tail` of the region's result
    array and the two endpoint vectors as they stand there. -/
theorem tail_of (W : Valuation τ sig (Elt Ideal)) :
    StableHlo.after (List.flatten [hostOps1 (F := Ideal)]) W (Proc.devRef .tc main_v59)
      = tail (W (Proc.devRef .tc main_v47)) (W (Proc.devRef .tc main_arg1)) (W (Proc.devRef .tc main_arg2)) := by
  rw [List.flatten_cons, List.flatten_nil, List.append_nil]
  after_results
  rfl

variable (m : (ℓ : Loc nD τ sig) → Buf (Elt Ideal) ℓ) (ρ : Dev nD → PrngReg)

/-- The launch contents of core `c`. -/
abbrev W0 (c : Dev nD) : Valuation τ sig (Elt Ideal) := fun b => m (c, b)

/-- The three arrays the region finds staged. -/
theorem V_r2 (c : Dev nD) : V m c (Pipeline.arrRef spec0 0) = shapeCast S125000x128 (src_v43 (W0 m c)) shapeCasts_S16000000_S125000x128 :=
  staged0 (W0 m c)
theorem V_s (c : Dev nD) : V m c (Pipeline.arrRef spec0 1) = shapeCast S125000x128 (src_v27 (W0 m c)) shapeCasts_S16000000_S125000x128 :=
  staged1 (W0 m c)
theorem V_eps (c : Dev nD) : V m c (Pipeline.arrRef spec0 2) = shapeCast S125000x128 (src_v41 (W0 m c)) shapeCasts_S16000000_S125000x128 :=
  staged2 (W0 m c)

/-- Laying three flat vectors out as 125000 × 128, taking half pair energies entry by entry and laying the result out
    flat again gives the half pair energies of the flat vectors, entry by entry. -/
theorem flat_energies (X0 X1 X2 : FVec Ideal S16000000 .f32) :
    shapeCast S16000000 (fun i => LJ.halfEnergy (shapeCast S125000x128 X0 shapeCasts_S16000000_S125000x128 i)
        (shapeCast S125000x128 X1 shapeCasts_S16000000_S125000x128 i) (shapeCast S125000x128 X2 shapeCasts_S16000000_S125000x128 i))
      shapeCasts_S125000x128_S16000000
    = fun k => LJ.halfEnergy (X0 k) (X1 k) (X2 k) := by
  funext k
  show LJ.halfEnergy (shapeCast S16000000 (shapeCast S125000x128 X0 shapeCasts_S16000000_S125000x128) shapeCasts_S125000x128_S16000000 k)
      (shapeCast S16000000 (shapeCast S125000x128 X1 shapeCasts_S16000000_S125000x128) shapeCasts_S125000x128_S16000000 k)
      (shapeCast S16000000 (shapeCast S125000x128 X2 shapeCasts_S16000000_S125000x128) shapeCasts_S125000x128_S16000000 k) = _
  rw [shapeCast_shapeCast, shapeCast_shapeCast, shapeCast_shapeCast]

/-- The region's result array, laid out flat: the half pair energy of every edge from its squared length and its two
    parameters. -/
theorem energies_flat (c : Dev nD) :
    shapeCast S16000000 (ArrayValue.energies m c) shapeCasts_S125000x128_S16000000
      = fun k => LJ.halfEnergy (src_v43 (W0 m c) k) (src_v27 (W0 m c) k) (src_v41 (W0 m c) k) := by
  unfold ArrayValue.energies
  rw [V_r2, V_s, V_eps]
  exact flat_energies _ _ _

/-- The program's result, as a value. -/
def result (c : Dev nD) : FVec Ideal S500000x1 .f32 :=
  tail (ArrayValue.energies m c) (m ((c.tc : Thread nD τ).loc main_arg1)) (m ((c.tc : Thread nD τ).loc main_arg2))

/-- What the frame run leaves in the result buffer is `result`. -/
theorem result_eq (c : Dev nD) :
    Pipeline.afterTail₀ cfgs (dats m) 0 (V0 m) [hostOps1] c main_v59 = result m c := by
  unfold Pipeline.afterTail₀
  refine (tail_of _).trans ?_
  have e47 := (Pipeline.withArrays_arr spec0 launch0.win.arr_inj c (V0 m c) (fun w => (dats m 0 c).arrAt w cfg0.N) 3).trans (ArrayValue.final m c)
  have e1 := (Pipeline.withArrays_of_ne spec0 c (V0 m c) (fun w => (dats m 0 c).arrAt w cfg0.N) main_arg1
    (by exact (by decide : ∀ w, Pipeline.arrRef spec0 w ≠ main_arg1))).trans (V_main_arg1 m c)
  have e2 := (Pipeline.withArrays_of_ne spec0 c (V0 m c) (fun w => (dats m 0 c).arrAt w cfg0.N) main_arg2
    (by exact (by decide : ∀ w, Pipeline.arrRef spec0 w ≠ main_arg2))).trans (V_main_arg2 m c)
  unfold result
  exact congr (congr (congrArg tail e47) e1) e2

/-- Every weakly fair execution of the program terminates with the result buffer at `result` and the arguments unchanged. -/
theorem run : θ_run defs (onTc (τ := τ) (main (F := Ideal))) ⟨m, fun _ => 0, ρ⟩ fun r => ∀ c : Dev nD,
      r.2.mem ((c.tc : Thread nD τ).loc main_v59) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v59 (Pipeline.mem_restRefs_of main_v59 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.HostValue

end
-- ==== Proof.RefValue.lean ====
/-
  The reference's per-edge value.

  The reference computes, for every edge, the same half pair energy from the same three per-edge numbers (the
  squared length of the edge vector and the two table entries at the endpoints' species); it writes the length
  parameter over the cutoff as a quotient by 5, which on the extended reals is the product with 1/5.
-/
import proofs.«414782_j72988674228250_3_alg».proof.Proof.Gen.ReferenceIdeal.Run
import proofs.«414782_j72988674228250_3_alg».proof.Proof.EdgeEnergy

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

/-- For ANY three per-edge vectors: the reference's chain of entrywise products, differences and quotients, halved,
    is the half pair energy entry by entry (the quotient by 5 is the product with 1/5). -/
theorem half_chain (r2 s eps : FVec Ideal S16000000 .f32) :
    mulf (broadcastInDim S16000000 ![] bcast_S_S16000000 (constant (F := Ideal) S_ .f32 0x3F000000#32))
      (subf
        (mulf (mulf (broadcastInDim S16000000 ![] bcast_S_S16000000 (constant (F := Ideal) S_ .f32 0x40800000#32)) eps)
          (subf (mulf (Host.divf (mulf (mulf (mulf s s) s) (mulf (mulf s s) s)) (mulf (mulf r2 r2) r2))
                  (Host.divf (mulf (mulf (mulf s s) s) (mulf (mulf s s) s)) (mulf (mulf r2 r2) r2)))
            (Host.divf (mulf (mulf (mulf s s) s) (mulf (mulf s s) s)) (mulf (mulf r2 r2) r2))))
        (mulf (mulf (broadcastInDim S16000000 ![] bcast_S_S16000000 (constant (F := Ideal) S_ .f32 0x40800000#32)) eps)
          (subf
            (mulf
              (mulf (mulf (mulf (Host.divf s (broadcastInDim S16000000 ![] bcast_S_S16000000 (constant (F := Ideal) S_ .f32 0x40A00000#32)))
                                (Host.divf s (broadcastInDim S16000000 ![] bcast_S_S16000000 (constant (F := Ideal) S_ .f32 0x40A00000#32))))
                          (Host.divf s (broadcastInDim S16000000 ![] bcast_S_S16000000 (constant (F := Ideal) S_ .f32 0x40A00000#32))))
                    (mulf (mulf (Host.divf s (broadcastInDim S16000000 ![] bcast_S_S16000000 (constant (F := Ideal) S_ .f32 0x40A00000#32)))
                                (Host.divf s (broadcastInDim S16000000 ![] bcast_S_S16000000 (constant (F := Ideal) S_ .f32 0x40A00000#32))))
                          (Host.divf s (broadcastInDim S16000000 ![] bcast_S_S16000000 (constant (F := Ideal) S_ .f32 0x40A00000#32)))))
              (mulf (mulf (mulf (Host.divf s (broadcastInDim S16000000 ![] bcast_S_S16000000 (constant (F := Ideal) S_ .f32 0x40A00000#32)))
                                (Host.divf s (broadcastInDim S16000000 ![] bcast_S_S16000000 (constant (F := Ideal) S_ .f32 0x40A00000#32))))
                          (Host.divf s (broadcastInDim S16000000 ![] bcast_S_S16000000 (constant (F := Ideal) S_ .f32 0x40A00000#32))))
                    (mulf (mulf (Host.divf s (broadcastInDim S16000000 ![] bcast_S_S16000000 (constant (F := Ideal) S_ .f32 0x40A00000#32)))
                                (Host.divf s (broadcastInDim S16000000 ![] bcast_S_S16000000 (constant (F := Ideal) S_ .f32 0x40A00000#32))))
                          (Host.divf s (broadcastInDim S16000000 ![] bcast_S_S16000000 (constant (F := Ideal) S_ .f32 0x40A00000#32))))))
            (mulf (mulf (mulf (Host.divf s (broadcastInDim S16000000 ![] bcast_S_S16000000 (constant (F := Ideal) S_ .f32 0x40A00000#32)))
                              (Host.divf s (broadcastInDim S16000000 ![] bcast_S_S16000000 (constant (F := Ideal) S_ .f32 0x40A00000#32))))
                        (Host.divf s (broadcastInDim S16000000 ![] bcast_S_S16000000 (constant (F := Ideal) S_ .f32 0x40A00000#32))))
                  (mulf (mulf (Host.divf s (broadcastInDim S16000000 ![] bcast_S_S16000000 (constant (F := Ideal) S_ .f32 0x40A00000#32)))
                              (Host.divf s (broadcastInDim S16000000 ![] bcast_S_S16000000 (constant (F := Ideal) S_ .f32 0x40A00000#32))))
                        (Host.divf s (broadcastInDim S16000000 ![] bcast_S_S16000000 (constant (F := Ideal) S_ .f32 0x40A00000#32))))))))
      = fun k => LJ.halfEnergy (r2 k) (s k) (eps k) := by
  funext k
  simp only [mulf, subf, Host.divf, broadcastInDim, constant, Ideal.mulf_def, Ideal.subf_def, Ideal.hostDivf_def,
    Ideal.ofBits_def, LJ.div_five, LJ.halfEnergy]

/-- Half the reference's per-edge energy is the half pair energy of the edge's squared length and its two parameters. -/
theorem half_v65 (W : Valuation τ sig (Elt Ideal)) :
    mulf (broadcastInDim S16000000 ![] bcast_S_S16000000 (constant (F := Ideal) S_ .f32 0x3F000000#32)) (res_main_v65 W)
      = fun k => LJ.halfEnergy (res_main_v53 W k) (res_main_v27 W k) (res_main_v41 W k) := by
  unfold res_main_v65 res_main_v59 res_main_v57 res_main_v46 res_main_v45 res_main_v43
  exact half_chain (res_main_v53 W) (res_main_v27 W) (res_main_v41 W)

/-- The reference's result as a value of its launch contents: zeros, accumulated at the first endpoints with half the
    per-edge energies, then at the second endpoints with the same, and given a trailing unit axis. -/
def ref_result (W : Valuation τ sig (Elt Ideal)) : FVec Ideal S500000x1 .f32 :=
  broadcastInDim S500000x1 ![0] bcast_S500000_S500000x1_0 (Host.scatterAdd (F := Ideal) scatter_S500000_S16000000x1_S16000000_n_0_0_1 (Host.scatterAdd (F := Ideal) scatter_S500000_S16000000x1_S16000000_n_0_0_1 (broadcastInDim S500000 ![] bcast_S_S500000 (constant (F := Ideal) S_ .f32 0x00000000#32)) (broadcastInDim S16000000x1 ![0] bcast_S16000000_S16000000x1_0 (select (cmpi .slt (W (Proc.devRef .tc main_arg1)) (broadcastInDim S16000000 ![] bcast_S_S16000000 (constantI S_ 32 0#32))) (addi (W (Proc.devRef .tc main_arg1)) (broadcastInDim S16000000 ![] bcast_S_S16000000 (constantI S_ 32 500000#32))) (W (Proc.devRef .tc main_arg1)))) (mulf (broadcastInDim S16000000 ![] bcast_S_S16000000 (constant (F := Ideal) S_ .f32 0x3F000000#32)) (res_main_v65 W))) (broadcastInDim S16000000x1 ![0] bcast_S16000000_S16000000x1_0 (select (cmpi .slt (W (Proc.devRef .tc main_arg2)) (broadcastInDim S16000000 ![] bcast_S_S16000000 (constantI S_ 32 0#32))) (addi (W (Proc.devRef .tc main_arg2)) (broadcastInDim S16000000 ![] bcast_S_S16000000 (constantI S_ 32 500000#32))) (W (Proc.devRef .tc main_arg2)))) (mulf (broadcastInDim S16000000 ![] bcast_S_S16000000 (constant (F := Ideal) S_ .f32 0x3F000000#32)) (res_main_v65 W)))

/-- Every weakly fair execution of the reference terminates with the result buffer at `ref_result` of the launch
    contents and the arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = ref_result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run (F := Ideal) m ρ

end Cert.ReferenceIdeal.RefValue

end
-- ==== Proof.ScatterSplit.lean ====
/-
  Scattering a concatenation is scattering twice.

  An accumulating scatter into a vector of 500000 entries adds each update to the entry its index names and
  drops an update whose index falls outside; at the exact instance the result at an entry is the operand's
  entry plus the SUM of the updates landing there. The 32000000 updates of a concatenation `[h, h]` at the
  concatenated indices `[a1, a2]` (negative indices first moved up by 500000, entry by entry) split into the
  first 16000000 and the last 16000000, and the sum over them is the sum over the first half plus the sum
  over the second half: exactly the two scatters done one after the other, by associativity of addition on
  the extended reals.
-/
import Idealize.ShloMosaic.PureOps.Ideal
import Idealize.ShloMosaic.Lib.Pipeline.Value

noncomputable section

namespace LJ

open Idealize.ShloMosaic

abbrev TA : Shape := ⟨1, ![500000]⟩
abbrev TE : Shape := ⟨1, ![16000000]⟩
abbrev TE1 : Shape := ⟨2, ![16000000, 1]⟩
abbrev TEE : Shape := ⟨1, ![32000000]⟩
abbrev TEE1 : Shape := ⟨2, ![32000000, 1]⟩
abbrev T0 : Shape := ⟨0, ![]⟩

/-- Where a 32-bit index lands in the operand: its signed value as a coordinate when that is in range. -/
def key (b : BitVec 32) : Option TA.Idx :=
  if h : 0 ≤ b.toInt ∧ b.toInt < 500000 then
    some fun a => ⟨b.toInt.toNat, by
      have : TA.size a = 500000 := by simp
      rw [this]; omega⟩
  else none

/-- The window start of update index `j`: the index vector's entry at `j`, read signed. -/
theorem start_eq (N : Nat)
    (wf : ScatterDims.WF TA ⟨2, ![N, 1]⟩ ⟨1, ![N]⟩ [] [0] [0] 1)
    (hc : (⟨1, ![N]⟩ : Shape).BroadcastsInDim ⟨2, ![N, 1]⟩ ![0])
    (v : IVec ⟨1, ![N]⟩ 32) (j : (⟨1, ![N]⟩ : Shape).Idx) (a : Fin TA.rank) :
    (⟨[], [0], [0], 1, wf⟩ : ScatterDims TA ⟨2, ![N, 1]⟩ ⟨1, ![N]⟩).start j
      (broadcastInDim ⟨2, ![N, 1]⟩ ![0] hc v) a = (v j).toInt := by
  unfold ScatterDims.start
  have ha : a = 0 := Subsingleton.elim _ _
  subst ha
  rw [dif_pos (by simp)]
  congr 1
  refine broadcastInDim_apply _ hc v _ j ?_
  intro b
  have hb : b = 0 := Subsingleton.elim _ _
  subst hb
  split
  · next h1 =>
    have h2 := (j 0).isLt
    have h3 : (⟨1, ![N]⟩ : Shape).size 0 = N := rfl
    omega
  · unfold ScatterDims.siIdx
    rw [dif_neg (show ¬ ((![0] 0 : Fin 2)).val = 1 by decide)]
    unfold ScatterDims.siCoord
    exact congrArg (fun x => (j x).val) (Subsingleton.elim _ _)

/-- There is no window: the one operand axis is an inserted one. -/
theorem window_eq (N : Nat)
    (wf : ScatterDims.WF TA ⟨2, ![N, 1]⟩ ⟨1, ![N]⟩ [] [0] [0] 1)
    (j : (⟨1, ![N]⟩ : Shape).Idx) (a : Fin TA.rank) :
    (⟨[], [0], [0], 1, wf⟩ : ScatterDims TA ⟨2, ![N, 1]⟩ ⟨1, ![N]⟩).window j a = 0 := by
  unfold ScatterDims.window
  rw [dif_neg]
  have ha : a = 0 := Subsingleton.elim _ _
  subst ha
  show (0 : Fin 1) ∉ TA.kept [0]
  decide

/-- Where an update lands depends on its own index alone: the signed value of the index vector's entry,
    a coordinate of the operand when it lies in `[0, 500000)`, dropped otherwise. -/
theorem resultIdx?_eq_key (N : Nat)
    (wf : ScatterDims.WF TA ⟨2, ![N, 1]⟩ ⟨1, ![N]⟩ [] [0] [0] 1)
    (hc : (⟨1, ![N]⟩ : Shape).BroadcastsInDim ⟨2, ![N, 1]⟩ ![0])
    (v : IVec ⟨1, ![N]⟩ 32) (j : (⟨1, ![N]⟩ : Shape).Idx) :
    (⟨[], [0], [0], 1, wf⟩ : ScatterDims TA ⟨2, ![N, 1]⟩ ⟨1, ![N]⟩).resultIdx? j
      (broadcastInDim ⟨2, ![N, 1]⟩ ![0] hc v) = key (v j) := by
  unfold ScatterDims.resultIdx? key
  have hsz : ∀ a : Fin TA.rank, TA.size a = 500000 := fun a => by simp
  by_cases h : 0 ≤ (v j).toInt ∧ (v j).toInt < 500000
  · rw [dif_pos h, dif_pos]
    · congr 1
      funext a
      apply Fin.ext
      show (_ + _ : Int).toNat = (v j).toInt.toNat
      rw [start_eq, window_eq]
      simp
    · intro a
      rw [start_eq, window_eq, hsz a]
      omega
  · rw [dif_neg h, dif_neg]
    intro H
    apply h
    have := H 0
    rw [start_eq, window_eq, hsz 0] at this
    omega

/-- A rank-one index is its one coordinate. -/
def idxEquiv (N : Nat) : (⟨1, ![N]⟩ : Shape).Idx ≃ Fin N where
  toFun j := j 0
  invFun n := fun a => Fin.cast (by simp) n
  left_inv j := by
    funext a
    have ha : a = 0 := Subsingleton.elim _ _
    subst ha
    rfl
  right_inv n := rfl

/-- An index of the first piece, as an index of the whole. -/
def inL {m K : Nat} (hK : m ≤ K) (j : (⟨1, ![m]⟩ : Shape).Idx) : (⟨1, ![K]⟩ : Shape).Idx :=
  fun a => ⟨(j a).val, by
    have h1 := (j a).isLt
    have h2 : (⟨1, ![m]⟩ : Shape).size a = m := by simp
    have h3 : (⟨1, ![K]⟩ : Shape).size a = K := by simp
    omega⟩

/-- An index of the second piece, as an index of the whole: the first piece's extent further on. -/
def inR {n K : Nat} (m : Nat) (hK : m + n ≤ K) (j : (⟨1, ![n]⟩ : Shape).Idx) : (⟨1, ![K]⟩ : Shape).Idx :=
  fun a => ⟨(j a).val + m, by
    have h1 := (j a).isLt
    have h2 : (⟨1, ![n]⟩ : Shape).size a = n := by simp
    have h3 : (⟨1, ![K]⟩ : Shape).size a = K := by simp
    omega⟩

/-- A sum over the indices of a vector of `m + n` entries is the sum over the first `m` plus the sum over
    the last `n`. -/
theorem sum_idx_split {M : Type} [AddCommMonoid M] (m n K : Nat) (hK : m + n = K)
    (g : (⟨1, ![K]⟩ : Shape).Idx → M) :
    ∑ j, g j = ∑ j : (⟨1, ![m]⟩ : Shape).Idx, g (inL (by omega) j)
      + ∑ j : (⟨1, ![n]⟩ : Shape).Idx, g (inR m (by omega) j) := by
  subst hK
  rw [← Equiv.sum_comp (idxEquiv (m + n)).symm g, Fin.sum_univ_add,
    ← Equiv.sum_comp (idxEquiv m) (fun k => g ((idxEquiv (m + n)).symm (Fin.castAdd n k))),
    ← Equiv.sum_comp (idxEquiv n) (fun k => g ((idxEquiv (m + n)).symm (Fin.natAdd m k)))]
  congr 1
  · refine Finset.sum_congr rfl fun j _ => congrArg g ?_
    funext a
    apply Fin.ext
    have ha : a = 0 := Subsingleton.elim _ _
    subst ha
    rfl
  · refine Finset.sum_congr rfl fun j _ => congrArg g ?_
    funext a
    apply Fin.ext
    have ha : a = 0 := Subsingleton.elim _ _
    subst ha
    show m + (j 0).val = (j 0).val + m
    omega

/-- Moving a negative index up by the operand's extent, on one entry. -/
def wrapI (b : BitVec 32) : BitVec 32 :=
  Scalar.select (IntOp.cmpi .slt b 0#32) (IntOp.addi b 500000#32) b

/-- The wrapped index vector is the wrap of each entry. -/
theorem wrap_apply {s : Shape} (hb : T0.BroadcastsInDim s ![]) (x : IVec s 32) (j : s.Idx) :
    select (cmpi .slt x (broadcastInDim s ![] hb (constantI T0 32 0#32)))
      (addi x (broadcastInDim s ![] hb (constantI T0 32 500000#32))) x j = wrapI (x j) := rfl

/-- A concatenation of two vectors of 16000000 entries, read in the first half. -/
theorem cat_inL {α : Type} (hcat : Shape.Concatenates [TE, TE] TEE 0) (x₁ x₂ : TE.Idx → α) (j : TE.Idx) :
    concatenate TEE 0 [⟨TE, x₁⟩, ⟨TE, x₂⟩] hcat (inL (by omega) j) = x₁ j :=
  concatenate_pair_apply_left (0 : Fin TEE.rank) x₁ x₂ hcat _ rfl j fun _ => rfl

/-- A concatenation of two vectors of 16000000 entries, read in the second half. -/
theorem cat_inR {α : Type} (hcat : Shape.Concatenates [TE, TE] TEE 0) (x₁ x₂ : TE.Idx → α) (j : TE.Idx) :
    concatenate TEE 0 [⟨TE, x₁⟩, ⟨TE, x₂⟩] hcat (inR 16000000 (by omega) j) = x₂ j :=
  concatenate_pair_apply_right (0 : Fin TEE.rank) x₁ x₂ hcat _ rfl rfl j
    (fun b hb => absurd (Subsingleton.elim _ _) hb) rfl

/-- The accumulating scatter at an entry: the operand's entry plus the updates whose wrapped index names it. -/
theorem scatter_apply (N : Nat)
    (wf : ScatterDims.WF TA ⟨2, ![N, 1]⟩ ⟨1, ![N]⟩ [] [0] [0] 1)
    (hc : (⟨1, ![N]⟩ : Shape).BroadcastsInDim ⟨2, ![N, 1]⟩ ![0])
    (x : TA.Idx → EReal) (v : IVec ⟨1, ![N]⟩ 32) (u : (⟨1, ![N]⟩ : Shape).Idx → EReal) (i : TA.Idx) :
    Ideal.hostScatterAdd (⟨[], [0], [0], 1, wf⟩ : ScatterDims TA ⟨2, ![N, 1]⟩ ⟨1, ![N]⟩) x
      (broadcastInDim ⟨2, ![N, 1]⟩ ![0] hc v) u i
    = x i + ∑ j, if key (v j) = some i then u j else 0 := by
  unfold Ideal.hostScatterAdd
  rw [Finset.sum_filter]
  congr 1
  refine Finset.sum_congr rfl fun j _ => ?_
  rw [resultIdx?_eq_key]

/-- Scattering the concatenated updates at the concatenated indices is scattering the first piece and then
    the second. -/
theorem scatterAdd_concat_eq
    (wf2 : ScatterDims.WF TA TEE1 TEE [] [0] [0] 1) (wf1 : ScatterDims.WF TA TE1 TE [] [0] [0] 1)
    (hb2 : T0.BroadcastsInDim TEE ![]) (hc2 : TEE.BroadcastsInDim TEE1 ![0])
    (hb1 : T0.BroadcastsInDim TE ![]) (hc1 : TE.BroadcastsInDim TE1 ![0])
    (hcat : Shape.Concatenates [TE, TE] TEE 0)
    (z : FVec Ideal TA .f32) (a1 a2 : IVec TE 32) (h : FVec Ideal TE .f32) :
    Host.scatterAdd (F := Ideal) (⟨[], [0], [0], 1, wf2⟩ : ScatterDims TA TEE1 TEE) z
      (broadcastInDim TEE1 ![0] hc2
        (select (cmpi .slt (concatenate TEE 0 [⟨TE, a1⟩, ⟨TE, a2⟩] hcat) (broadcastInDim TEE ![] hb2 (constantI T0 32 0#32)))
          (addi (concatenate TEE 0 [⟨TE, a1⟩, ⟨TE, a2⟩] hcat) (broadcastInDim TEE ![] hb2 (constantI T0 32 500000#32)))
          (concatenate TEE 0 [⟨TE, a1⟩, ⟨TE, a2⟩] hcat)))
      (concatenate TEE 0 [⟨TE, h⟩, ⟨TE, h⟩] hcat)
    = Host.scatterAdd (F := Ideal) (⟨[], [0], [0], 1, wf1⟩ : ScatterDims TA TE1 TE)
        (Host.scatterAdd (F := Ideal) (⟨[], [0], [0], 1, wf1⟩ : ScatterDims TA TE1 TE) z
          (broadcastInDim TE1 ![0] hc1
            (select (cmpi .slt a1 (broadcastInDim TE ![] hb1 (constantI T0 32 0#32)))
              (addi a1 (broadcastInDim TE ![] hb1 (constantI T0 32 500000#32))) a1)) h)
        (broadcastInDim TE1 ![0] hc1
          (select (cmpi .slt a2 (broadcastInDim TE ![] hb1 (constantI T0 32 0#32)))
            (addi a2 (broadcastInDim TE ![] hb1 (constantI T0 32 500000#32))) a2)) h := by
  funext i
  simp only [Host.scatterAdd, Ideal.hostScatterAdd_def]
  rw [scatter_apply 32000000 wf2 hc2, scatter_apply 16000000 wf1 hc1, scatter_apply 16000000 wf1 hc1]
  rw [add_assoc]
  refine congrArg (fun t => z i + t) ?_
  rw [sum_idx_split 16000000 16000000 32000000 (by norm_num)]
  refine congrArg₂ (fun s t : EReal => s + t) ?_ ?_
  · refine Finset.sum_congr rfl fun j _ => ?_
    rw [wrap_apply, wrap_apply, cat_inL, cat_inL]
  · refine Finset.sum_congr rfl fun j _ => ?_
    rw [wrap_apply, wrap_apply, cat_inR, cat_inR]

end LJ

end
-- ==== Proof.Bridge.lean ====
/-
  The two programs compute one function.

  From launch contents that agree on the six arguments, both programs form the same three per-edge vectors (the
  squared edge lengths and the two gathered parameters), so their per-edge half energies agree entry by entry; and the
  kernel's one scatter of the doubled vector at the concatenated endpoints is the reference's two scatters in a row.
-/
import proofs.«414782_j72988674228250_3_alg».proof.Proof.KernelHost
import proofs.«414782_j72988674228250_3_alg».proof.Proof.RefValue
import proofs.«414782_j72988674228250_3_alg».proof.Proof.ScatterSplit

noncomputable section

namespace Cert.Proof.Bridge

open Idealize.ShloMosaic Idealize.ShloMosaic.TcCoe Idealize.SL.Sem Idealize.ShloMosaic.StableHlo

variable (W : Valuation Cert.KernelIdeal.τ Cert.KernelIdeal.sig (Elt Ideal))
  (W' : Valuation Cert.ReferenceIdeal.τ Cert.ReferenceIdeal.sig (Elt Ideal))

/-- Equal edge vectors have equal squared lengths. -/
theorem r2_agree
    (h3 : W' (Proc.devRef .tc Cert.ReferenceIdeal.main_arg3) = W (Proc.devRef .tc Cert.KernelIdeal.main_arg3)) :
    (Cert.ReferenceIdeal.Value.res_main_v53 W' : FVec Ideal LJ.TE .f32) = Cert.KernelIdeal.HostValue.src_v43 W := by
  unfold Cert.ReferenceIdeal.Value.res_main_v53 Cert.KernelIdeal.HostValue.src_v43
  rw [h3]

/-- Equal species and endpoint vectors give equal species at the first endpoints. -/
theorem sp1_agree
    (h0 : W' (Proc.devRef .tc Cert.ReferenceIdeal.main_arg0) = W (Proc.devRef .tc Cert.KernelIdeal.main_arg0))
    (h1 : W' (Proc.devRef .tc Cert.ReferenceIdeal.main_arg1) = W (Proc.devRef .tc Cert.KernelIdeal.main_arg1)) :
    (Cert.ReferenceIdeal.Value.res_main_v6 W' : IVec LJ.TE 32) = Cert.KernelIdeal.HostValue.src_v6 W := by
  unfold Cert.ReferenceIdeal.Value.res_main_v6 Cert.KernelIdeal.HostValue.src_v6
  rw [h0, h1]
  rfl

/-- And at the second endpoints. -/
theorem sp2_agree
    (h0 : W' (Proc.devRef .tc Cert.ReferenceIdeal.main_arg0) = W (Proc.devRef .tc Cert.KernelIdeal.main_arg0))
    (h2 : W' (Proc.devRef .tc Cert.ReferenceIdeal.main_arg2) = W (Proc.devRef .tc Cert.KernelIdeal.main_arg2)) :
    (Cert.ReferenceIdeal.Value.res_main_v13 W' : IVec LJ.TE 32) = Cert.KernelIdeal.HostValue.src_v13 W := by
  unfold Cert.ReferenceIdeal.Value.res_main_v13 Cert.KernelIdeal.HostValue.src_v13
  rw [h0, h2]
  rfl

/-- Equal tables at equal species pairs: equal length parameters. -/
theorem s_agree
    (h0 : W' (Proc.devRef .tc Cert.ReferenceIdeal.main_arg0) = W (Proc.devRef .tc Cert.KernelIdeal.main_arg0))
    (h1 : W' (Proc.devRef .tc Cert.ReferenceIdeal.main_arg1) = W (Proc.devRef .tc Cert.KernelIdeal.main_arg1))
    (h2 : W' (Proc.devRef .tc Cert.ReferenceIdeal.main_arg2) = W (Proc.devRef .tc Cert.KernelIdeal.main_arg2))
    (h4 : W' (Proc.devRef .tc Cert.ReferenceIdeal.main_arg4) = W (Proc.devRef .tc Cert.KernelIdeal.main_arg4)) :
    (Cert.ReferenceIdeal.Value.res_main_v27 W' : FVec Ideal LJ.TE .f32) = Cert.KernelIdeal.HostValue.src_v27 W := by
  unfold Cert.ReferenceIdeal.Value.res_main_v27 Cert.KernelIdeal.HostValue.src_v27
  rw [sp1_agree W W' h0 h1, sp2_agree W W' h0 h2, h4]
  rfl

/-- And equal depth parameters. -/
theorem eps_agree
    (h0 : W' (Proc.devRef .tc Cert.ReferenceIdeal.main_arg0) = W (Proc.devRef .tc Cert.KernelIdeal.main_arg0))
    (h1 : W' (Proc.devRef .tc Cert.ReferenceIdeal.main_arg1) = W (Proc.devRef .tc Cert.KernelIdeal.main_arg1))
    (h2 : W' (Proc.devRef .tc Cert.ReferenceIdeal.main_arg2) = W (Proc.devRef .tc Cert.KernelIdeal.main_arg2))
    (h5 : W' (Proc.devRef .tc Cert.ReferenceIdeal.main_arg5) = W (Proc.devRef .tc Cert.KernelIdeal.main_arg5)) :
    (Cert.ReferenceIdeal.Value.res_main_v41 W' : FVec Ideal LJ.TE .f32) = Cert.KernelIdeal.HostValue.src_v41 W := by
  unfold Cert.ReferenceIdeal.Value.res_main_v41 Cert.KernelIdeal.HostValue.src_v41
  rw [sp1_agree W W' h0 h1, sp2_agree W W' h0 h2, h5]
  rfl

/-- From launch contents agreeing on the arguments, the kernel's result is the reference's. -/
theorem result_agree (m : (ℓ : Loc Cert.KernelIdeal.nD Cert.KernelIdeal.τ Cert.KernelIdeal.sig) → Buf (Elt Ideal) ℓ)
    (c : Dev Cert.KernelIdeal.nD)
    (h0 : W' (Proc.devRef .tc Cert.ReferenceIdeal.main_arg0) = Cert.KernelIdeal.HostValue.W0 m c (Proc.devRef .tc Cert.KernelIdeal.main_arg0))
    (h1 : W' (Proc.devRef .tc Cert.ReferenceIdeal.main_arg1) = Cert.KernelIdeal.HostValue.W0 m c (Proc.devRef .tc Cert.KernelIdeal.main_arg1))
    (h2 : W' (Proc.devRef .tc Cert.ReferenceIdeal.main_arg2) = Cert.KernelIdeal.HostValue.W0 m c (Proc.devRef .tc Cert.KernelIdeal.main_arg2))
    (h3 : W' (Proc.devRef .tc Cert.ReferenceIdeal.main_arg3) = Cert.KernelIdeal.HostValue.W0 m c (Proc.devRef .tc Cert.KernelIdeal.main_arg3))
    (h4 : W' (Proc.devRef .tc Cert.ReferenceIdeal.main_arg4) = Cert.KernelIdeal.HostValue.W0 m c (Proc.devRef .tc Cert.KernelIdeal.main_arg4))
    (h5 : W' (Proc.devRef .tc Cert.ReferenceIdeal.main_arg5) = Cert.KernelIdeal.HostValue.W0 m c (Proc.devRef .tc Cert.KernelIdeal.main_arg5)) :
    Cert.KernelIdeal.HostValue.result m c = Cert.ReferenceIdeal.RefValue.ref_result W' := by
  unfold Cert.KernelIdeal.HostValue.result Cert.KernelIdeal.HostValue.tail Cert.ReferenceIdeal.RefValue.ref_result
  rw [Cert.KernelIdeal.HostValue.energies_flat m c, Cert.ReferenceIdeal.RefValue.half_v65 W',
    r2_agree _ W' h3, s_agree _ W' h0 h1 h2 h4, eps_agree _ W' h0 h1 h2 h5, h1, h2]
  exact congrArg _ (LJ.scatterAdd_concat_eq _ _ _ _ _ _ _ _ _ _ _)

end Cert.Proof.Bridge

end
-- ==== Proof.lean ====
/-
  Per-atom Lennard-Jones energies: the tiled kernel program against the plain array program.

  Both programs take the species of 500000 atoms, the two endpoints of 16000000 edges, the edge vectors and two
  4 × 4 tables of pair parameters, and return for every atom the sum, over the edge ends that name it, of half the
  shifted pair energy of that edge. For one edge with squared length r2 and parameters s, eps (the tables at the
  endpoints' species) that half energy is
      (1/2) · ( 4·eps·((s⁶/r2³)² − s⁶/r2³) − 4·eps·((s/5)¹² − (s/5)⁶) ),
  every power written as the same chain of products in both programs.

  The kernel program computes the per-edge values in a region of 25 grid points, each a block of 5000 × 128 edges
  (the three per-edge vectors laid out 125000 × 128 before it, the result laid out flat after it), and then scatters
  the doubled vector at the concatenated endpoints in one accumulating scatter; the reference computes the per-edge
  values with whole-array operations and scatters twice in a row. On the extended reals:
    * the kernel's factor named 1/5 times s is the reference's quotient s / 5 (for every extended real s);
    * the region's result array is the per-edge value at every entry (each point writes its row block of one
      function of the staged arrays, and the 25 row blocks cover the array);
    * a sum over 32000000 updates splits into the sum over the first 16000000 and the sum over the last 16000000,
      so one scatter of the concatenation is the two scatters in a row (associativity of addition; no cancellation,
      so infinite values are no obstacle and the finiteness of the inputs is never used).
  The frames of the two kernel programs are the generated ones; the reference's frame is its generated run with the
  result dropped; the one rewrite of the ideal pass (the constant 0.2 read as 1/5) is the table's entry.
-/
import proofs.«414782_j72988674228250_3_alg».proof.Defs
import proofs.«414782_j72988674228250_3_alg».proof.Proof.Gen.Kernel
import proofs.«414782_j72988674228250_3_alg».proof.Proof.Gen.Kernel.Skeleton
import proofs.«414782_j72988674228250_3_alg».proof.Proof.Gen.Kernel.Launch
import proofs.«414782_j72988674228250_3_alg».proof.Proof.Gen.Kernel.Points
import proofs.«414782_j72988674228250_3_alg».proof.Proof.Gen.Kernel.Frame
import proofs.«414782_j72988674228250_3_alg».proof.Proof.Gen.KernelIdeal
import proofs.«414782_j72988674228250_3_alg».proof.Proof.Gen.KernelIdeal.Skeleton
import proofs.«414782_j72988674228250_3_alg».proof.Proof.Gen.KernelIdeal.Launch
import proofs.«414782_j72988674228250_3_alg».proof.Proof.Gen.KernelIdeal.Points
import proofs.«414782_j72988674228250_3_alg».proof.Proof.Gen.KernelIdeal.Frame
import proofs.«414782_j72988674228250_3_alg».proof.Proof.Gen.ReferenceIdeal
import proofs.«414782_j72988674228250_3_alg».proof.Proof.Gen.ReferenceIdeal.Run
import proofs.«414782_j72988674228250_3_alg».proof.Proof.Gen.Pre_finite_inputs
import proofs.«414782_j72988674228250_3_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite: the constant 0.2 is named 1/5, and the table gives that name the rational 1/5. -/
theorem preserves : Cert.preserves_Kernel_KernelIdeal :=
  IdealRules.named_const.statement Cert.KernelIdeal.κ "inv_5" .f32 0x3E4CCCCD#32 ((1 / 5 : ℝ) : EReal) rfl

/-- From memories agreeing on the arguments both programs end with the same per-atom energies. -/
theorem algebraic : Cert.algebraic_KernelIdeal_ReferenceIdeal := by
  intro m ρ m' ρ' _ hagree
  refine ⟨fun c => Cert.KernelIdeal.HostValue.result m c, Cert.KernelIdeal.HostValue.run m ρ, ?_⟩
  refine (θ_run Cert.ReferenceIdeal.defs _ _).mono (fun _ h c => ⟨(h c).1.trans ?_, (h c).2⟩)
    (Cert.ReferenceIdeal.RefValue.run_result m' ρ')
  obtain ⟨h0, h1, h2, h3, h4, h5⟩ := hagree c
  exact (Bridge.result_agree (StableHlo.launchContents m' c) m c h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
